-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x16 : Shape := ⟨2, ![2048, 16]⟩
abbrev S8192x16 : Shape := ⟨2, ![8192, 16]⟩
abbrev S_ : Shape := ⟨0, ![]⟩

class Facts : Prop where
  bcast_S_S2048x16 : S_.BroadcastsInDim S2048x16 (![] : Fin 0 → Fin S2048x16.rank)
  reducesTo_S2048x16_S_d0_1 : S2048x16.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_

variable [Facts]

def fn {F : FTy → Type} [FloatOps F] (main_arg0 : FVec F S2048x16 .f32) (main_arg1 : FVec F S8192x16 .f32) : IVec S_ 1 :=
  let main_v0 : FVec F S2048x16 .f32 := Host.absf main_arg0
  let main_cst : FVec F S_ .f32 := constant S_ .f32 0x7F800000#32
  let main_v1 : FVec F S2048x16 .f32 := broadcastInDim S2048x16 ![] bcast_S_S2048x16 main_cst
  let main_v2 : IVec S2048x16 1 := cmpf .olt main_v0 main_v1
  let main_c : IVec S_ 1 := constantI S_ 1 1#1
  let main_v3 : IVec S_ 1 := (fun x v => Host.reduce IntOp.andi x v reducesTo_S2048x16_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  main_v8
-- ==== Kernel.lean ====
abbrev S2048x16 : Shape := ⟨2, ![2048, 16]⟩
abbrev S8192x16 : Shape := ⟨2, ![8192, 16]⟩
abbrev S2048x8192 : Shape := ⟨2, ![2048, 8192]⟩
abbrev S1024x16 : Shape := ⟨2, ![1024, 16]⟩
abbrev S1024x2048 : Shape := ⟨2, ![1024, 2048]⟩
abbrev S1024x1 : Shape := ⟨2, ![1024, 1]⟩
abbrev S2048x1 : Shape := ⟨2, ![2048, 1]⟩
abbrev S2048 : Shape := ⟨1, ![2048]⟩
abbrev S1x2048 : Shape := ⟨2, ![1, 2048]⟩

abbrev nBuf : Space → Nat
  | .hbm => 3
  | .vmem => 6
  | .smem => 0
  | _ => 0

abbrev bufTy : (tb : Table) → Fin (tcTables nBuf tb) → BufTy
  | .hbm, ⟨0, _⟩ => ⟨S2048x16, .f32⟩
  | .hbm, ⟨1, _⟩ => ⟨S8192x16, .f32⟩
  | .hbm, ⟨2, _⟩ => ⟨S2048x8192, .f32⟩
  | .local _ .vmem, ⟨0, _⟩ => ⟨S1024x16, .f32⟩
  | .local _ .vmem, ⟨1, _⟩ => ⟨S1024x16, .f32⟩
  | .local _ .vmem, ⟨2, _⟩ => ⟨S2048x16, .f32⟩
  | .local _ .vmem, ⟨3, _⟩ => ⟨S2048x16, .f32⟩
  | .local _ .vmem, ⟨4, _⟩ => ⟨S1024x2048, .f32⟩
  | .local _ .vmem, ⟨5, _⟩ => ⟨S1024x2048, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1024x16_S1024x16_0_0 : ∀ a, (![0, 0] : Fin 2 → Nat) a + S1024x16.size a ≤ S1024x16.size a
  h_S1024x16 : 0 < S1024x16.numel
  inb_S2048x16_S2048x16_0_0 : ∀ a, (![0, 0] : Fin 2 → Nat) a + S2048x16.size a ≤ S2048x16.size a
  h_S2048x16 : 0 < S2048x16.numel
  slices_S1024x16_o0_0_S1024x1 : S1024x16.Slices ![0, 0] S1024x1
  slices_S2048x16_o0_0_S2048x1 : S2048x16.Slices ![0, 0] S2048x1
  shapeCasts_S2048x1_S2048 : S2048x1.ShapeCasts S2048
  shapeCasts_S2048_S1x2048 : S2048.ShapeCasts S1x2048
  broadcasts_S1024x1_S1024x2048 : S1024x1.Broadcasts S1024x2048
  broadcasts_S1x2048_S1024x2048 : S1x2048.Broadcasts S1024x2048
  slices_S1024x16_o0_1_S1024x1 : S1024x16.Slices ![0, 1] S1024x1
  slices_S2048x16_o0_1_S2048x1 : S2048x16.Slices ![0, 1] S2048x1
  slices_S1024x16_o0_2_S1024x1 : S1024x16.Slices ![0, 2] S1024x1
  slices_S2048x16_o0_2_S2048x1 : S2048x16.Slices ![0, 2] S2048x1
  slices_S1024x16_o0_3_S1024x1 : S1024x16.Slices ![0, 3] S1024x1
  slices_S2048x16_o0_3_S2048x1 : S2048x16.Slices ![0, 3] S2048x1
  slices_S1024x16_o0_4_S1024x1 : S1024x16.Slices ![0, 4] S1024x1
  slices_S2048x16_o0_4_S2048x1 : S2048x16.Slices ![0, 4] S2048x1
  slices_S1024x16_o0_5_S1024x1 : S1024x16.Slices ![0, 5] S1024x1
  slices_S2048x16_o0_5_S2048x1 : S2048x16.Slices ![0, 5] S2048x1
  slices_S1024x16_o0_6_S1024x1 : S1024x16.Slices ![0, 6] S1024x1
  slices_S2048x16_o0_6_S2048x1 : S2048x16.Slices ![0, 6] S2048x1
  slices_S1024x16_o0_7_S1024x1 : S1024x16.Slices ![0, 7] S1024x1
  slices_S2048x16_o0_7_S2048x1 : S2048x16.Slices ![0, 7] S2048x1
  slices_S1024x16_o0_8_S1024x1 : S1024x16.Slices ![0, 8] S1024x1
  slices_S2048x16_o0_8_S2048x1 : S2048x16.Slices ![0, 8] S2048x1
  slices_S1024x16_o0_9_S1024x1 : S1024x16.Slices ![0, 9] S1024x1
  slices_S2048x16_o0_9_S2048x1 : S2048x16.Slices ![0, 9] S2048x1
  slices_S1024x16_o0_10_S1024x1 : S1024x16.Slices ![0, 10] S1024x1
  slices_S2048x16_o0_10_S2048x1 : S2048x16.Slices ![0, 10] S2048x1
  slices_S1024x16_o0_11_S1024x1 : S1024x16.Slices ![0, 11] S1024x1
  slices_S2048x16_o0_11_S2048x1 : S2048x16.Slices ![0, 11] S2048x1
  slices_S1024x16_o0_12_S1024x1 : S1024x16.Slices ![0, 12] S1024x1
  slices_S2048x16_o0_12_S2048x1 : S2048x16.Slices ![0, 12] S2048x1
  slices_S1024x16_o0_13_S1024x1 : S1024x16.Slices ![0, 13] S1024x1
  slices_S2048x16_o0_13_S2048x1 : S2048x16.Slices ![0, 13] S2048x1
  slices_S1024x16_o0_14_S1024x1 : S1024x16.Slices ![0, 14] S1024x1
  slices_S2048x16_o0_14_S2048x1 : S2048x16.Slices ![0, 14] S2048x1
  slices_S1024x16_o0_15_S1024x1 : S1024x16.Slices ![0, 15] S1024x1
  slices_S2048x16_o0_15_S2048x1 : S2048x16.Slices ![0, 15] S2048x1
  inb_S1024x2048_S1024x2048_0_0 : ∀ a, (![0, 0] : Fin 2 → Nat) a + S1024x2048.size a ≤ S1024x2048.size a
  h_S1024x2048 : 0 < S1024x2048.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x16.size a ≤ S2048x16.size a
  hwx0_0 : ∀ i : grid0.Coords, EltTy.bits .f32 = 32 ∨ (Rect.block (s := S2048x16) S1024x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S8192x16.size a
  hwx0_1 : ∀ i : grid0.Coords, EltTy.bits .f32 = 32 ∨ (Rect.block (s := S8192x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S2048x8192.size a
  hwx0_2 : ∀ i : grid0.Coords, EltTy.bits .f32 = 32 ∨ (Rect.block (s := S2048x8192) S1024x2048.size (cc0_transform_2 i) (hinb0_2 i)).WholeWords (EltTy.packing .f32)

variable [Facts₀]

abbrev win0_0 : Pipeline.Window sig grid0 :=
  Pipeline.Window.ofSpec (Memref.whole main_arg0) S1024x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S2048x16 : Shape := ⟨2, ![2048, 16]⟩
abbrev S8192x16 : Shape := ⟨2, ![8192, 16]⟩
abbrev S2048x1x16 : Shape := ⟨3, ![2048, 1, 16]⟩
abbrev S1x8192x16 : Shape := ⟨3, ![1, 8192, 16]⟩
abbrev S2048x8192x16 : Shape := ⟨3, ![2048, 8192, 16]⟩
abbrev S_ : Shape := ⟨0, ![]⟩
abbrev S2048x8192 : Shape := ⟨2, ![2048, 8192]⟩

abbrev nBuf : Space → Nat
  | .hbm => 13
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S8192x16, .f32⟩
  | .hbm, ⟨2, _⟩ => ⟨S2048x1x16, .f32⟩
  | .hbm, ⟨3, _⟩ => ⟨S1x8192x16, .f32⟩
  | .hbm, ⟨4, _⟩ => ⟨S2048x8192x16, .f32⟩
  | .hbm, ⟨5, _⟩ => ⟨S2048x8192x16, .f32⟩
  | .hbm, ⟨6, _⟩ => ⟨S2048x8192x16, .f32⟩
  | .hbm, ⟨7, _⟩ => ⟨S_, .f32⟩
  | .hbm, ⟨8, _⟩ => ⟨S2048x8192x16, .f32⟩
  | .hbm, ⟨9, _⟩ => ⟨S2048x8192x16, .f32⟩
  | .hbm, ⟨10, _⟩ => ⟨S_, .f32⟩
  | .hbm, ⟨11, _⟩ => ⟨S2048x8192, .f32⟩
  | .hbm, ⟨12, _⟩ => ⟨S2048x8192, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S2048x16_S2048x1x16_0_2 : S2048x16.BroadcastsInDim S2048x1x16 (![0, 2] : Fin 2 → Fin S2048x1x16.rank)
  bcast_S8192x16_S1x8192x16_1_2 : S8192x16.BroadcastsInDim S1x8192x16 (![1, 2] : Fin 2 → Fin S1x8192x16.rank)
  bcast_S2048x1x16_S2048x8192x16_0_1_2 : S2048x1x16.BroadcastsInDim S2048x8192x16 (![0, 1, 2] : Fin 3 → Fin S2048x8192x16.rank)
  bcast_S1x8192x16_S2048x8192x16_0_1_2 : S1x8192x16.BroadcastsInDim S2048x8192x16 (![0, 1, 2] : Fin 3 → Fin S2048x8192x16.rank)
  bcast_S_S2048x8192x16 : S_.BroadcastsInDim S2048x8192x16 (![] : Fin 0 → Fin S2048x8192x16.rank)
  reducesTo_S2048x8192x16_S2048x8192_d2 : S2048x8192x16.ReducesTo [2] S2048x8192
  h_S_ : 0 < S_.numel

variable [Facts₀]

class Facts : Prop extends Facts₀ where

variable [Facts]
-- ==== Proof.HingeScore.lean ====
/-
  The mathematics both programs compute, with no program in sight.

  For a query matrix `q` (2048 rows of 16 numbers) and a corpus matrix `c` (8192 rows of 16 numbers) the score of
  query row `i` against corpus row `j` is the negated sum, over the sixteen coordinates `k`, of the positive part of
  `q i k - c j k`:

      score q c (i, j) = -(∑ k, max (q (i, k) - c (j, k)) 0)        on the extended reals.

  One program adds the sixteen positive parts one at a time onto zero and subtracts the total from zero; the other
  adds zero to their sum and negates. On the extended reals addition is commutative and associative with neutral
  element zero, and `0 - x = -x`, at the infinities too, so the two arrangements are the same number and nothing
  about the entries (finiteness included) is used: `neg_sum_of_chain`.
-/
import Idealize.ShloMosaic.Lib.ValueIdx
import Idealize.ShloMosaic.PureOps.Ideal.Laws

noncomputable section

open scoped BigOperators

namespace Cert.HingeScore

open Idealize.ShloMosaic Idealize.ShloMosaic.ValueIdx

/-- The query matrix's, the corpus matrix's and the score matrix's index sets. -/
abbrev QIdx : Type := (⟨2, ![2048, 16]⟩ : Shape).Idx
abbrev CIdx : Type := (⟨2, ![8192, 16]⟩ : Shape).Idx
abbrev OIdx : Type := (⟨2, ![2048, 8192]⟩ : Shape).Idx

/-- The positive part of a difference: what one coordinate contributes. -/
def hinge (a b : EReal) : EReal := max (a - b) 0

/-- The score matrix: entry `(i, j)` is the negated sum over the sixteen coordinates of the positive part of
    `q (i, k) - c (j, k)`. -/
def score (q : QIdx → EReal) (c : CIdx → EReal) : OIdx → EReal :=
  fun y => -(∑ k : Fin 16, hinge (q (ix2 (y 0) k)) (c (ix2 (y 1) k)))

/-- Sixteen numbers added one at a time onto zero, the total subtracted from zero, is the negated sum: zero is
    neutral for addition, `0 - x = -x`, and a sum over `Fin 16` is its terms added in order. -/
theorem neg_sum_of_chain (f : Fin 16 → EReal) :
    0 - ((((((((((((((((0 + f 0) + f 1) + f 2) + f 3) + f 4) + f 5) + f 6) + f 7) + f 8) + f 9) + f 10) + f 11)
        + f 12) + f 13) + f 14) + f 15) = -(∑ k : Fin 16, f k) := by
  rw [zero_sub, zero_add]
  congr 1
  simp only [Fin.sum_univ_castSucc, Fin.sum_univ_zero, zero_add]
  rfl

/-- Zero added to the sum, negated: the other arrangement. -/
theorem neg_zero_add_sum (f : Fin 16 → EReal) : -(0 + ∑ k : Fin 16, f k) = -(∑ k : Fin 16, f k) := by
  rw [zero_add]

end Cert.HingeScore

end
-- ==== Proof.RefValue.lean ====
/-
  The reference program's result, read index by index: it broadcasts the query rows along the corpus axis and the
  corpus rows along the query axis, subtracts, takes the maximum with zero, adds the sixteen coordinates onto zero
  and negates. At entry `(i, j)` that is `-(0 + ∑ k, max (q (i, k) - c (j, k)) 0)`, which is `score q c (i, j)`
  because zero is neutral for addition.
-/
import proofs.«137436_j68882685493537_1_alg».proof.Proof.Gen.ReferenceIdeal.Read
import proofs.«137436_j68882685493537_1_alg».proof.Proof.HingeScore

noncomputable section

open scoped BigOperators

namespace Cert.ReferenceIdeal.RefValue

open Cert.ReferenceIdeal Cert.ReferenceIdeal.Gen Cert.ReferenceIdeal.Read Idealize.ShloMosaic
  Idealize.ShloMosaic.ValueIdx Cert.HingeScore

/-- Through the two broadcasts, entry `(i, j, k)` of the widened query tensor is `q (i, k)`. -/
theorem query_index (i : S2048x8192.Idx) (k : Fin 16) :
    idx_main_v0 (idx_main_v2 (idx_main_v6 i k)) = ix2 (i 0) k :=
  funext fun a => Fin.ext (by match a with | ⟨0, _⟩ => rfl | ⟨1, _⟩ => rfl)

/-- Through the two broadcasts, entry `(i, j, k)` of the widened corpus tensor is `c (j, k)`. -/
theorem corpus_index (i : S2048x8192.Idx) (k : Fin 16) :
    idx_main_v1 (idx_main_v3 (idx_main_v6 i k)) = ix2 (i 1) k :=
  funext fun a => Fin.ext (by match a with | ⟨0, _⟩ => rfl | ⟨1, _⟩ => rfl)

/-- The reference's last stage is the score matrix of its two arguments. -/
theorem result_eq_score (x0 : (⟨S2048x16, .f32⟩ : BufTy).Contents (Elt Ideal))
    (x1 : (⟨S8192x16, .f32⟩ : BufTy).Contents (Elt Ideal)) :
    val_main_v7 (F := Ideal) x0 x1 = score x0 x1 := by
  funext i
  rw [val_main_v7_apply, val_main_v6_apply]
  simp only [val_main_v5_apply, val_main_v4_apply, val_main_v2_apply, val_main_v3_apply, val_main_v0_apply,
    val_main_v1_apply, val_main_call0_v0_apply, val_main_call0_cst_apply, val_main_cst_apply, query_index,
    corpus_index, Ideal.hostNegf_def, Ideal.negf_def, Ideal.maximumf_def, Ideal.subf_def, Ideal.ofBits_def,
    Ideal.ofBits_zero_f32]
  exact neg_zero_add_sum _

end Cert.ReferenceIdeal.RefValue

end
-- ==== Proof.ScoreValue.lean ====
/-
  The kernel's result, read index by index.

  The grid has 2 × 4 points. At point `(a, b)` the body sees rows `1024 a … 1024 a + 1023` of the query matrix and rows
  `2048 b … 2048 b + 2047` of the corpus matrix, and writes the 1024 × 2048 tile at block `(a, b)` of the score
  matrix. Inside a tile, entry `(r, s)` is zero minus the sixteen positive parts `max (q (r, k) - c (s, k)) 0` added
  one coordinate at a time onto zero: `tile_entry` (by `neg_sum_of_chain` it is the negated sum). A tile's query rows
  and corpus rows are the score entry's own row and column of the whole matrices (`query_block_index`,
  `corpus_block_index`), so each point writes back its block of `score q c` (`flushed_eq_score`); the eight blocks
  tile the 2048 × 8192 matrix (`covered`), so the array ends holding `score q c` (`final_score`, `run_score`).
-/
import proofs.«137436_j68882685493537_1_alg».proof.Proof.Gen.KernelIdeal.Value
import proofs.«137436_j68882685493537_1_alg».proof.Proof.HingeScore
import Idealize.ShloMosaic.Lib.Pipeline.Value

noncomputable section

open scoped BigOperators

namespace Cert.KernelIdeal.ScoreValue

open Cert.KernelIdeal Cert.KernelIdeal.Gen Cert.KernelIdeal.Value Idealize.ShloMosaic Idealize.ShloMosaic.TcCoe
  Idealize.SL.Sem Idealize.ShloMosaic.ValueIdx Cert.HingeScore
open Idealize.ShloMosaic.Pipeline (Dat)

variable (m : (ℓ : Loc nD τ sig) → Buf (Elt Ideal) ℓ) (ρ : Dev nD → PrngReg)

/-- The body loads and stores its blocks whole: from offset zero on both axes. -/
theorem zero_offsets : (![0, 0] : Fin 2 → Nat) = fun _ => 0 := funext fun a => by fin_cases a <;> rfl

/-- A rank-2 index with known coordinates is the index built from them. -/
theorem at_coords {n0 n1 : Nat} (u : (⟨2, ![n0, n1]⟩ : Shape).Idx) (a : Fin n0) (b : Fin n1)
    (h0 : (u 0).val = a.val) (h1 : (u 1).val = b.val) : u = ix2 a b :=
  funext fun d => Fin.ext (by match d with | ⟨0, _⟩ => exact h0 | ⟨1, _⟩ => exact h1)

/-! ## One tile -/

/-- Entry `y = (r, s)` of the tile the body leaves, from the body's two loaded blocks: the negated sum over the
    coordinates of the positive part of `P0 (r, k) - P1 (s, k)`. The body's sixteen partial sums read `P0` at row `r`
    and `P1` at row `s`, coordinate by coordinate; the arrangement is `neg_sum_of_chain`'s. -/
theorem tile_entry (P0 : Vec Ideal S1024x16 .f32) (P1 : Vec Ideal S2048x16 .f32) (y : S1024x2048.Idx) :
    E2 (F := Ideal) P0 P1 y = -(∑ k : Fin 16, hinge (P0 (ix2 (y 0) k)) (P1 (ix2 (y 1) k))) := by
  have hs : Scalar.ofBits (F := Ideal) .f32 0x00000000#32 = (0 : EReal) := Ideal.ofBits_zero_f32
  refine Eq.trans ?_ (neg_sum_of_chain fun k => hinge (P0 (ix2 (y 0) k)) (P1 (ix2 (y 1) k)))
  show FloatOps.subf (F := Ideal) _ _ = _
  rw [
    at_coords (ix2_0 y) (y 0) 0 rfl rfl, at_coords (ix2_1 y) (y 1) 0 rfl rfl,
    at_coords (ix2_2 y) (y 0) 1 rfl rfl, at_coords (ix2_3 y) (y 1) 1 rfl rfl,
    at_coords (ix2_4 y) (y 0) 2 rfl rfl, at_coords (ix2_5 y) (y 1) 2 rfl rfl,
    at_coords (ix2_6 y) (y 0) 3 rfl rfl, at_coords (ix2_7 y) (y 1) 3 rfl rfl,
    at_coords (ix2_8 y) (y 0) 4 rfl rfl, at_coords (ix2_9 y) (y 1) 4 rfl rfl,
    at_coords (ix2_10 y) (y 0) 5 rfl rfl, at_coords (ix2_11 y) (y 1) 5 rfl rfl,
    at_coords (ix2_12 y) (y 0) 6 rfl rfl, at_coords (ix2_13 y) (y 1) 6 rfl rfl,
    at_coords (ix2_14 y) (y 0) 7 rfl rfl, at_coords (ix2_15 y) (y 1) 7 rfl rfl,
    at_coords (ix2_16 y) (y 0) 8 rfl rfl, at_coords (ix2_17 y) (y 1) 8 rfl rfl,
    at_coords (ix2_18 y) (y 0) 9 rfl rfl, at_coords (ix2_19 y) (y 1) 9 rfl rfl,
    at_coords (ix2_20 y) (y 0) 10 rfl rfl, at_coords (ix2_21 y) (y 1) 10 rfl rfl,
    at_coords (ix2_22 y) (y 0) 11 rfl rfl, at_coords (ix2_23 y) (y 1) 11 rfl rfl,
    at_coords (ix2_24 y) (y 0) 12 rfl rfl, at_coords (ix2_25 y) (y 1) 12 rfl rfl,
    at_coords (ix2_26 y) (y 0) 13 rfl rfl, at_coords (ix2_27 y) (y 1) 13 rfl rfl,
    at_coords (ix2_28 y) (y 0) 14 rfl rfl, at_coords (ix2_29 y) (y 1) 14 rfl rfl,
    at_coords (ix2_30 y) (y 0) 15 rfl rfl, at_coords (ix2_31 y) (y 1) 15 rfl rfl]
  simp only [hinge, hs, Ideal.subf_def, Ideal.addf_def, Ideal.maximumf_def]

/-- The same entry of what the body's one store leaves in the output buffer. -/
theorem out_entry (x0 : Vec Ideal S1024x16 .f32) (x1 : Vec Ideal S2048x16 .f32) (y : S1024x2048.Idx) :
    out0_2 (F := Ideal) x0 x1 y = -(∑ k : Fin 16, hinge (x0 (ix2 (y 0) k)) (x1 (ix2 (y 1) k))) := by
  unfold out0_2
  simp only [View.ld_unit_zero (S := S1024x16) zero_offsets, View.ld_unit_zero (S := S2048x16) zero_offsets]
  rw [canon2_eq]
  exact tile_entry x0 x1 y

/-! ## From tiles to the matrix -/

/-- The index maps over the eight grid points: the query window moves with the output's row block, the corpus window
    with the output's column block, neither moves along the coordinate axis, and the output's block indices range over
    2 × 4. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 1
    ∧ win0_2.index t (1 : Fin 2) ≤ 3 :=
  (by decide +kernel : ∀ t : Fin grid0.N, _)

/-- Every block of the 2 × 4 arrangement is some grid point's. -/
theorem idx_onto : ∀ (q0 : Fin 2) (q1 : Fin 4), ∃ t : Fin cfg0.N, win0_2.index t = ![q0.val, q1.val] :=
  (by decide +kernel : ∀ (q0 : Fin 2) (q1 : Fin 4), ∃ t : Fin grid0.N, win0_2.index t = ![q0.val, q1.val])

/-- Row `r`, coordinate `k` of point `t`'s query block is row (the score entry's row), coordinate `k` of the query
    matrix. -/
theorem query_block_index (t : Fin cfg0.N) (j : S1024x2048.Idx) (k : Fin 16) :
    ((cfg0.win 0).blk t).view.emb (ix2 (j 0) k) = ix2 ((((cfg0.win 2).blk t).view.emb j) 0) k := by
  obtain ⟨e0, e1, e2, e3, e4, e5⟩ := idx_facts t
  funext a; apply Fin.ext
  match a with
  | ⟨0, _⟩ => show win0_0.index t (0 : Fin 2) * 1024 + 1 * (j 0).val = win0_2.index t (0 : Fin 2) * 1024 + 1 * (j 0).val; omega
  | ⟨1, _⟩ => show win0_0.index t (1 : Fin 2) * 16 + 1 * k.val = k.val; omega

/-- Row `s`, coordinate `k` of point `t`'s corpus block is row (the score entry's column), coordinate `k` of the
    corpus matrix. -/
theorem corpus_block_index (t : Fin cfg0.N) (j : S1024x2048.Idx) (k : Fin 16) :
    ((cfg0.win 1).blk t).view.emb (ix2 (j 1) k) = ix2 ((((cfg0.win 2).blk t).view.emb j) 1) k := by
  obtain ⟨e0, e1, e2, e3, e4, e5⟩ := idx_facts t
  funext a; apply Fin.ext
  match a with
  | ⟨0, _⟩ => show win0_1.index t (0 : Fin 2) * 2048 + 1 * (j 1).val = win0_2.index t (1 : Fin 2) * 2048 + 1 * (j 1).val; omega
  | ⟨1, _⟩ => show win0_1.index t (1 : Fin 2) * 16 + 1 * k.val = k.val; omega

/-- What grid point `t` writes back is block `t` of the score matrix of the two argument arrays. -/
theorem flushed_eq_score (c : Dev nD) (t : Fin cfg0.N) :
    (dats m 0 c).flushed 2 t
      = ((cfg0.win 2).blk t).view.read (Elt Ideal) (score (V m c main_arg0) (V m c main_arg1)) := by
  rw [flushed2]
  funext j
  show out0_2 (F := Ideal) (iblk m c 0 t) (iblk m c 1 t) j
    = score (V m c main_arg0) (V m c main_arg1) (((cfg0.win 2).blk t).view.emb j)
  refine (out_entry (iblk m c 0 t) (iblk m c 1 t) j).trans ?_
  unfold score
  refine congrArg Neg.neg (Finset.sum_congr rfl fun k _ => ?_)
  show hinge (V m c main_arg0 (((cfg0.win 0).blk t).view.emb (ix2 (j 0) k)))
      (V m c main_arg1 (((cfg0.win 1).blk t).view.emb (ix2 (j 1) k))) = _
  rw [query_block_index, corpus_block_index]
  rfl

/-- An index of the score matrix is in point `t`'s block iff each coordinate is in the block's range on its axis. -/
theorem mem_block (t : Fin cfg0.N) (i : S2048x8192.Idx) :
    i ∈ ((cfg0.win 2).blk t).view.set ↔ ∀ a : Fin 2, win0_2.index t a * S1024x2048.size a ≤ (i a).val
      ∧ (i a).val < win0_2.index t a * S1024x2048.size a + S1024x2048.size a := by
  show i ∈ ((View.whole main_v0).slice (win0_2.rect t)).set ↔ _
  rw [View.set_slice_whole, Rect.mem_set_unit]
  exact Iff.rfl

/-- The eight blocks tile the score matrix: entry `(r, s)` lies in the block of the point whose block index is
    `(r / 1024, s / 2048)`. -/
theorem covered (i : S2048x8192.Idx) :
    ∃ t : Fin cfg0.N, (cfg0.win 2).flush t = true ∧ i ∈ ((cfg0.win 2).blk t).view.set := by
  have hi0 : (i 0).val < 2048 := (i 0).isLt
  have hi1 : (i 1).val < 8192 := (i 1).isLt
  obtain ⟨t, ht⟩ := idx_onto ⟨(i 0).val / 1024, by omega⟩ ⟨(i 1).val / 2048, by omega⟩
  have q0 : win0_2.index t (0 : Fin 2) = (i 0).val / 1024 := congrFun ht 0
  have q1 : win0_2.index t (1 : Fin 2) = (i 1).val / 2048 := congrFun ht 1
  refine ⟨t, flush0_2 t, ?_⟩
  rw [mem_block]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 2048 ≤ (i 1).val ∧ (i 1).val < win0_2.index t (1 : Fin 2) * 2048 + 2048; omega

/-- The output array after the run is the score matrix of the two argument arrays. -/
theorem final_score (c : Dev nD) :
    (dats m 0 c).arrAt 2 cfg0.N
      = score (m ((c : Thread nD τ).loc main_arg0)) (m ((c : Thread nD τ).loc main_arg1)) :=
  (dats m 0 c).arrAt_eq_of_cover 2 (score (V m c main_arg0) (V m c main_arg1))
    (fun t _ => flushed_eq_score m c t) covered

/-- The kernel's run, read: the result array at the score matrix of the arguments, the arguments unchanged. -/
theorem run_score : θ_run defs (onTc (τ := τ) (main (F := Ideal))) ⟨m, fun _ => 0, ρ⟩ fun r => ∀ c : Dev nD,
      r.2.mem ((c : Thread nD τ).loc main_v0)
        = score (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_score m c), (h c).2⟩) (run_blocks m ρ)

end Cert.KernelIdeal.ScoreValue

end
-- ==== Proof.lean ====
/-
  The certificate of the hinge-score kernel against its reference.

  Both programs compute, from a query matrix `q` (2048 × 16) and a corpus matrix `c` (8192 × 16), the 2048 × 8192
  matrix of scores `-(∑ k, max (q (i, k) - c (j, k)) 0)`.

  * The kernel tiles the score matrix into 2 × 4 blocks of 1024 × 2048; in a tile it adds the sixteen positive parts
    onto zero one coordinate at a time and subtracts the total from zero (Proof/ScoreValue.lean: one tile, then the
    tiles cover the matrix).
  * The reference broadcasts both matrices to 2048 × 8192 × 16, subtracts, takes the maximum with zero, sums the last
    axis onto zero and negates (Proof/RefValue.lean).
  * On the extended reals the two arrangements of the sum are one number (Proof/HingeScore.lean: addition is
    commutative and associative with zero neutral, and `0 - x = -x`), so no entry needs to be finite and the
    precondition is never opened.

  The kernel's two frames are the generated frame runs; the reference's frame is its run with the result dropped; the
  idealization rewrote nothing, so `preserves` has nothing to state.
-/
import proofs.«137436_j68882685493537_1_alg».proof.Defs
import proofs.«137436_j68882685493537_1_alg».proof.Proof.Gen.Kernel
import proofs.«137436_j68882685493537_1_alg».proof.Proof.Gen.Kernel.Skeleton
import proofs.«137436_j68882685493537_1_alg».proof.Proof.Gen.Kernel.Launch
import proofs.«137436_j68882685493537_1_alg».proof.Proof.Gen.Kernel.Points
import proofs.«137436_j68882685493537_1_alg».proof.Proof.Gen.Kernel.Frame
import proofs.«137436_j68882685493537_1_alg».proof.Proof.Gen.KernelIdeal
import proofs.«137436_j68882685493537_1_alg».proof.Proof.Gen.KernelIdeal.Skeleton
import proofs.«137436_j68882685493537_1_alg».proof.Proof.Gen.KernelIdeal.Launch
import proofs.«137436_j68882685493537_1_alg».proof.Proof.Gen.KernelIdeal.Points
import proofs.«137436_j68882685493537_1_alg».proof.Proof.Gen.KernelIdeal.Frame
import proofs.«137436_j68882685493537_1_alg».proof.Proof.Gen.ReferenceIdeal
import proofs.«137436_j68882685493537_1_alg».proof.Proof.Gen.Pre_finite_inputs
import proofs.«137436_j68882685493537_1_alg».proof.Proof.Gen.KernelIdeal.Value
import proofs.«137436_j68882685493537_1_alg».proof.Proof.Gen.ReferenceIdeal.Run
import proofs.«137436_j68882685493537_1_alg».proof.Proof.Gen.ReferenceIdeal.Read
import proofs.«137436_j68882685493537_1_alg».proof.Proof.HingeScore
import proofs.«137436_j68882685493537_1_alg».proof.Proof.RefValue
import proofs.«137436_j68882685493537_1_alg».proof.Proof.ScoreValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernel_ideal : Cert.frame_KernelIdeal := fun m ρ _ => Cert.KernelIdeal.Gen.frame m ρ

/-- The reference runs and leaves its arguments unchanged: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the two matrices, the kernel's result array and the reference's both end holding
    the score matrix of those matrices. -/
theorem algebraic : Cert.algebraic_KernelIdeal_ReferenceIdeal := by
  intro m ρ m' ρ' _ hagree
  refine ⟨fun c => Cert.HingeScore.score
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ScoreValue.run_score m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq_score, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
